-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S4000x256 : Shape := ⟨2, ![4000, 256]⟩
abbrev S4000x128 : Shape := ⟨2, ![4000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S4000x40 : Shape := ⟨2, ![4000, 40]⟩
abbrev S1700000x40 : Shape := ⟨2, ![1700000, 40]⟩
abbrev S1x40 : Shape := ⟨2, ![1, 40]⟩

abbrev nBuf : Space → Nat
  | .hbm => 120
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x40, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000, .f32⟩
  | .hbm, ⟨100, _⟩ => ⟨S1700000, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x40, .f32⟩
  | .hbm, ⟨110, _⟩ => ⟨S1700000x1, .f32⟩
  | .hbm, ⟨111, _⟩ => ⟨S1700000x40, .f32⟩
  | .hbm, ⟨112, _⟩ => ⟨S1700000x40, .f32⟩
  | .hbm, ⟨113, _⟩ => ⟨S_, .f32⟩
  | .hbm, ⟨114, _⟩ => ⟨S100000x40, .f32⟩
  | .hbm, ⟨115, _⟩ => ⟨S1700000x1, .i32⟩
  | .hbm, ⟨116, _⟩ => ⟨S100000x40, .f32⟩
  | .hbm, ⟨117, _⟩ => ⟨S1x40, .f32⟩
  | .hbm, ⟨118, _⟩ => ⟨S100000x40, .f32⟩
  | .hbm, ⟨119, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x40, .f32⟩
  | .local _ .vmem, ⟨9, _⟩ => ⟨S4000x40, .f32⟩
  | .local _ .vmem, ⟨10, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S4000x256_S256x128_S4000x128_1_0_0_1_n_n_wf : DotDims.WF S4000x256 S256x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x40_S4000x40_1_0_0_1_n_n_wf : DotDims.WF S4000x128 S128x40 S4000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The two-layer graph convolution both programs compute, as one function of the argument arrays.

  An edge list `e : i32[2, 1600000]` gives a source row and a destination row; every node gets a
  self loop, so the lists become `s2, d2 : i32[1700000]`. The degree of a node is the number of
  list entries whose destination it is; `dinv` is its inverse square root (zero where the degree
  is not positive); an edge's weight is `dinv[src] * dinv[dst]`. One aggregation sends a feature
  matrix `h` to the matrix whose row `n` is the weighted sum of the rows `h[src]` over the edges
  with destination `n` (`aggregate128`, `aggregate40`: the same function at two widths).
  The network is
      out = aggregate40 (relu (aggregate128 (x · W1) + b1) · W2) + b2.
  Every piece is spelt with the host operations of the reference's program, so that the
  reference's run is this function by unfolding, and the kernel's host stretches are the same
  pieces applied to what its two dense layers leave.
-/
import proofs.«114629_j13048110645409_1_alg».proof.ReferenceIdeal
import proofs.«114629_j13048110645409_1_alg».proof.Proof.Gen.ReferenceIdeal

noncomputable section

namespace Cert.GcnSpec

open Cert.ReferenceIdeal Cert.ReferenceIdeal.Gen Idealize.ShloMosaic

variable {F : FTy → Type} [FloatOps F]

/-- Row 0 of the edge list: the sources. -/
def srcRow (e : IVec S2x1600000 32) : IVec S1600000 32 :=
  shapeCast _ (extractStridedSlice S1x1600000 ![0, 0] e slices_S2x1600000_S1x1600000_0_0) shapeCasts_S1x1600000_S1600000

/-- Row 1 of the edge list: the destinations. -/
def dstRow (e : IVec S2x1600000 32) : IVec S1600000 32 :=
  shapeCast _ (extractStridedSlice S1x1600000 ![1, 0] e slices_S2x1600000_S1x1600000_1_0) shapeCasts_S1x1600000_S1600000

/-- An end-point list followed by one self loop per node. -/
def withLoops (v : IVec S1600000 32) : IVec S1700000 32 :=
  concatenate S1700000 0 [⟨S1600000, v⟩, ⟨S100000, (iotaInDim S100000 32 0)⟩] concatenates_S1600000_S100000_S1700000_d0

/-- A negative node number counts from the end (what indexing `a[v]` does before it gathers). -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A list as a column of one-entry index vectors. -/
def idxCol (v : IVec S1700000 32) : IVec S1700000x1 32 :=
  broadcastInDim S1700000x1 ![0] bcast_S1700000_S1700000x1_0 v

/-- The number of list entries pointing at each node. -/
def degree (d2 : IVec S1700000 32) : FVec F S100000 .f32 :=
  Host.scatterAdd scatter_S100000_S1700000x1_S1700000_n_0_0_1
    (broadcastInDim S100000 ![] bcast_S_S100000 (constant S_ .f32 0x00000000#32))
    (idxCol d2)
    (broadcastInDim S1700000 ![] bcast_S_S1700000 (constant S_ .f32 0x3F800000#32))

/-- `1 / sqrt(degree)`, and zero where the degree is not positive. -/
def dinv (d2 : IVec S1700000 32) : FVec F S100000 .f32 :=
  select (cmpf .ogt (degree (F := F) d2) (broadcastInDim S100000 ![] bcast_S_S100000 (constant S_ .f32 0x00000000#32)))
    (Host.rsqrt (degree (F := F) d2))
    (broadcastInDim S100000 ![] bcast_S_S100000 (id (constant S_ .f32 0x00000000#32)))

/-- The symmetric normalisation of each edge: `dinv[src] * dinv[dst]`. -/
def edgeWeight (s2 d2 : IVec S1700000 32) : FVec F S1700000 .f32 :=
  mulf (Host.gather gather_S100000_S1700000x1_S1700000_n_0_n_n_0_1_1 (dinv (F := F) d2) (idxCol (wrapIdx s2)))
    (Host.gather gather_S100000_S1700000x1_S1700000_n_0_n_n_0_1_1 (dinv (F := F) d2) (idxCol (wrapIdx d2)))

/-- One aggregation of a 128-column feature matrix: gather the source rows, scale each by its
    edge's weight, add them up per destination. -/
def aggregate128 (s2 d2 : IVec S1700000 32) (h : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (idxCol d2)
    (mulf (Host.gather gather_S100000x128_S1700000x1_S1700000x128_1_0_n_n_0_1_1128 h (idxCol (wrapIdx s2)))
      (broadcastInDim S1700000x128 ![0, 1] bcast_S1700000x1_S1700000x128_0_1
        (broadcastInDim S1700000x1 ![0] bcast_S1700000_S1700000x1_0 (edgeWeight (F := F) s2 d2))))

/-- The same aggregation of a 40-column feature matrix. -/
def aggregate40 (s2 d2 : IVec S1700000 32) (h : FVec F S100000x40 .f32) : FVec F S100000x40 .f32 :=
  Host.scatterAdd scatter_S100000x40_S1700000x1_S1700000x40_1_0_0_1
    (broadcastInDim S100000x40 ![] bcast_S_S100000x40 (constant S_ .f32 0x00000000#32))
    (idxCol d2)
    (mulf (Host.gather gather_S100000x40_S1700000x1_S1700000x40_1_0_n_n_0_1_140 h (idxCol (wrapIdx s2)))
      (broadcastInDim S1700000x40 ![0, 1] bcast_S1700000x1_S1700000x40_0_1
        (broadcastInDim S1700000x1 ![0] bcast_S1700000_S1700000x1_0 (edgeWeight (F := F) s2 d2))))

/-- The first dense layer: `x · W1`. -/
def dense1 (x : FVec F S100000x256 .f32) (w : FVec F S256x128 .f32) : FVec F S100000x128 .f32 :=
  Host.dotGeneral dot_S100000x256_S256x128_S100000x128_1_0_0_1_n_n none x w

/-- The second dense layer with its bias and rectifier in front: `relu (a + b1) · W2`. -/
def dense2 (a : FVec F S100000x128 .f32) (b : FVec F S128 .f32) (w : FVec F S128x40 .f32) : FVec F S100000x40 .f32 :=
  Host.dotGeneral dot_S100000x128_S128x40_S100000x40_1_0_0_1_n_n none
    (maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32)))
    w

/-- The closing bias: `a + b2` on every row. -/
def addBias40 (a : FVec F S100000x40 .f32) (b : FVec F S40 .f32) : FVec F S100000x40 .f32 :=
  addf a (broadcastInDim S100000x40 ![0, 1] bcast_S1x40_S100000x40_0_1 (broadcastInDim S1x40 ![1] bcast_S40_S1x40_1 b))

/-- The network's output from given first- and second-layer dense results: what is common to the two programs
    once their dense layers are known to agree. -/
def network (e : IVec S2x1600000 32) (x : FVec F S100000x256 .f32) (w1 : FVec F S256x128 .f32) (b1 : FVec F S128 .f32)
    (w2 : FVec F S128x40 .f32) (b2 : FVec F S40 .f32) : FVec F S100000x40 .f32 :=
  addBias40 (aggregate40 (withLoops (srcRow e)) (withLoops (dstRow e))
    (dense2 (aggregate128 (withLoops (srcRow e)) (withLoops (dstRow e)) (dense1 x w1)) b1 w2)) b2

end Cert.GcnSpec

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Dense.lean ====
/-
  The two dense layers, read at an index on the extended reals.

  First layer. A tile of 4000 rows of `x` against the whole of `W1`: the vector unit's product into a zero
  accumulator holds at (p, q) the sum over k of x[p,k] · W1[k,q], and so does the host's product of the whole
  100000-row matrix. (The tile's operands pass through a change of float format, which is the identity here.)

  Second layer. On a tile the kernel adds the stored bias row to every row, takes the maximum with zero and
  multiplies by `W2`; the host does the same to the whole matrix with the bias vector broadcast twice. Both hold at
  (p, q) the sum over k of max (a[p,k] + b[k]) 0 · W2[k,q].
-/
import proofs.«114629_j13048110645409_1_alg».proof.Proof.Spec
import proofs.«114629_j13048110645409_1_alg».proof.Proof.LibPlainDot
import proofs.«114629_j13048110645409_1_alg».proof.Proof.LibRowBias
import proofs.«114629_j13048110645409_1_alg».proof.Proof.Gen.KernelIdeal.Skeleton
import Idealize.ShloMosaic.Lib.Pipeline.Value

noncomputable section

open scoped BigOperators

namespace Cert.GcnDense

open Idealize.ShloMosaic Idealize.ShloMosaic.ValueIdx

/-! ## The four dimension records are the plain M×K by K×N one -/

theorem tileDot1 : Cert.KernelIdeal.dot_S4000x256_S256x128_S4000x128_1_0_0_1_n_n = DotDims.plain 4000 256 128 := rfl
theorem tileDot2 : Cert.KernelIdeal.dot_S4000x128_S128x40_S4000x40_1_0_0_1_n_n = DotDims.plain 4000 128 40 := rfl
theorem wholeDot1 : Cert.ReferenceIdeal.dot_S100000x256_S256x128_S100000x128_1_0_0_1_n_n = DotDims.plain 100000 256 128 := rfl
theorem wholeDot2 : Cert.ReferenceIdeal.dot_S100000x128_S128x40_S100000x40_1_0_0_1_n_n = DotDims.plain 100000 128 40 := rfl

/-! ## First layer -/

/-- The whole product at (p, q). -/
theorem dense1_apply (x : FVec Ideal ⟨2, ![100000, 256]⟩ .f32) (w : FVec Ideal ⟨2, ![256, 128]⟩ .f32) (p : Fin 100000) (q : Fin 128) :
    Cert.GcnSpec.dense1 (F := Ideal) x w (ix2 p q) = ∑ k : Fin 256, x (ix2 p k) * w (ix2 k q) := by
  unfold Cert.GcnSpec.dense1
  show FloatOps.dotGeneral Cert.ReferenceIdeal.dot_S100000x256_S256x128_S100000x128_1_0_0_1_n_n none .single x w (ix2 p q) = _
  rw [wholeDot1]
  exact Cert.PlainDot.dotGeneral_apply none .single x w p q

/-- A tile's product at (p, q). -/
theorem tile1_apply (x : FVec Ideal ⟨2, ![4000, 256]⟩ .f32) (w : FVec Ideal ⟨2, ![256, 128]⟩ .f32) (p : Fin 4000) (q : Fin 128) :
    Cert.KernelIdeal.Gen.k0_pay1 (F := Ideal) x w (ix2 p q) = ∑ k : Fin 256, x (ix2 p k) * w (ix2 k q) := by
  unfold Cert.KernelIdeal.Gen.k0_pay1
  show FloatOps.matmul Cert.KernelIdeal.dot_S4000x256_S256x128_S4000x128_1_0_0_1_n_n none x w (constant ⟨2, ![4000, 128]⟩ .f32 0x00000000#32) (ix2 p q) = _
  rw [tileDot1]
  exact Cert.PlainDot.matmul_zero_apply none x w p q

/-! ## Second layer -/

/-- The whole second layer at (p, q). -/
theorem dense2_apply (a : FVec Ideal ⟨2, ![100000, 128]⟩ .f32) (b : FVec Ideal ⟨1, ![128]⟩ .f32) (w : FVec Ideal ⟨2, ![128, 40]⟩ .f32)
    (p : Fin 100000) (q : Fin 40) :
    Cert.GcnSpec.dense2 (F := Ideal) a b w (ix2 p q) = ∑ k : Fin 128, max (a (ix2 p k) + b (ix1 k)) 0 * w (ix2 k q) := by
  unfold Cert.GcnSpec.dense2
  show FloatOps.dotGeneral Cert.ReferenceIdeal.dot_S100000x128_S128x40_S100000x40_1_0_0_1_n_n none .single _ w (ix2 p q) = _
  rw [wholeDot2]
  refine (Cert.PlainDot.dotGeneral_apply none .single _ w p q).trans ?_
  refine Finset.sum_congr rfl fun k _ => ?_
  refine congrArg (· * w (ix2 k q)) ?_
  show max (a (ix2 p k) + broadcastInDim (⟨2, ![100000, 128]⟩ : Shape) ![0, 1] _ (broadcastInDim (⟨2, ![1, 128]⟩ : Shape) ![1] _ b) (ix2 p k))
      (broadcastInDim (⟨2, ![100000, 128]⟩ : Shape) ![] _ (constant ⟨0, ![]⟩ .f32 0x00000000#32) (ix2 p k)) = _
  rw [Cert.RowBias.hostRows_apply, Cert.RowBias.splat_apply]
  show max _ (Ideal.ofBits .f32 0x00000000#32) = _
  rw [Ideal.ofBits_zero_f32]

/-- A tile's second layer at (p, q): `b` is the stored one-row bias. -/
theorem tile2_apply (b : FVec Ideal ⟨2, ![1, 128]⟩ .f32) (a : FVec Ideal ⟨2, ![4000, 128]⟩ .f32) (w : FVec Ideal ⟨2, ![128, 40]⟩ .f32)
    (p : Fin 4000) (q : Fin 40) :
    Cert.KernelIdeal.Gen.k1_pay1 (F := Ideal) b a w (ix2 p q) = ∑ k : Fin 128, max (a (ix2 p k) + b (ix2 (0 : Fin 1) k)) 0 * w (ix2 k q) := by
  unfold Cert.KernelIdeal.Gen.k1_pay1
  show FloatOps.matmul Cert.KernelIdeal.dot_S4000x128_S128x40_S4000x40_1_0_0_1_n_n none _ w (constant ⟨2, ![4000, 40]⟩ .f32 0x00000000#32) (ix2 p q) = _
  rw [tileDot2]
  refine (Cert.PlainDot.matmul_zero_apply none _ w p q).trans ?_
  refine Finset.sum_congr rfl fun k _ => ?_
  refine congrArg (· * w (ix2 k q)) ?_
  show max (shapeCast (⟨2, ![4000, 128]⟩ : Shape) a _ (ix2 p k)
        + broadcastTo (⟨2, ![4000, 128]⟩ : Shape) (shapeCast (⟨2, ![1, 128]⟩ : Shape) (shapeCast (⟨2, ![1, 128]⟩ : Shape) b _) _) _ (ix2 p k))
      (Ideal.ofBits .f32 0x00000000#32) = _
  rw [shapeCast_self, Cert.RowBias.rows_apply, shapeCast_self, shapeCast_self, Ideal.ofBits_zero_f32]

end Cert.GcnDense

end
-- ==== Proof.Layer1.lean ====
/-
  What the first pallas_call leaves in its result array: the whole product `x · W1`.

  The grid has 25 points; point `t` reads rows 4000·t … 4000·t + 3999 of `x` and the whole of `W1`, and writes
  the same rows of the result. Row p of a tile's product is row 4000·t + p of the whole product (Dense.lean), the
  25 row blocks cover the array, so the array after the run is the whole product of the arrays as the region finds
  them.
-/
import proofs.«114629_j13048110645409_1_alg».proof.Proof.Gen.KernelIdeal.Frame
import proofs.«114629_j13048110645409_1_alg».proof.Proof.Dense
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the `x` window moves with the result window down the rows, `W1`'s stays. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every row block is some point's. -/
theorem blockOnto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product. -/
theorem flushed_eq (c : Dev nD) (t : Fin cfg0.N) :
    (dat0 V c).flushed 2 t
      = ((cfg0.win 2).blk t).view.read (Elt Ideal) (Cert.GcnSpec.dense1 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S4000x256) zeroOffsets, View.ld_unit_zero (S := S256x128) zeroOffsets]
  obtain ⟨e00, e01, e10, e11, e20, e21⟩ := blockIndices t
  funext j
  obtain ⟨p, q, rfl⟩ : ∃ (p : Fin 4000) (q : Fin 128), j = ix2 p q := ⟨j 0, j 1, eq_ix2 j⟩
  have hP : win0_2.index t (0 : Fin 2) * 4000 + p.val < 100000 := by have := p.isLt; omega
  show k0_pay1 (F := Ideal) (iblk0 V c 0 t) (iblk0 V c 1 t) (ix2 p q)
      = Cert.GcnSpec.dense1 (F := Ideal) (V c main_arg0) (V c main_arg2) (((cfg0.win 2).blk t).view.emb (ix2 p q))
  have hemb : ((cfg0.win 2).blk t).view.emb (ix2 p q)
      = ix2 (⟨win0_2.index t (0 : Fin 2) * 4000 + p.val, hP⟩ : Fin 100000) q := by
    funext a; apply Fin.ext
    match a with
    | ⟨0, _⟩ => show win0_2.index t (0 : Fin 2) * 4000 + 1 * p.val = win0_2.index t (0 : Fin 2) * 4000 + p.val; omega
    | ⟨1, _⟩ => show win0_2.index t (1 : Fin 2) * 128 + 1 * q.val = q.val; omega
  rw [hemb]
  refine (Cert.GcnDense.tile1_apply (iblk0 V c 0 t) (iblk0 V c 1 t) p q).trans ?_
  refine Eq.trans ?_ (Cert.GcnDense.dense1_apply (V c main_arg0) (V c main_arg2) ⟨win0_2.index t (0 : Fin 2) * 4000 + p.val, hP⟩ q).symm
  refine Finset.sum_congr rfl fun k _ => ?_
  have hx : iblk0 V c 0 t (ix2 p k)
      = V c main_arg0 (ix2 (⟨win0_2.index t (0 : Fin 2) * 4000 + p.val, hP⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = win0_2.index t (0 : Fin 2) * 4000 + p.val; omega
    | ⟨1, _⟩ => show win0_0.index t (1 : Fin 2) * 256 + 1 * k.val = k.val; omega
  have hw : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  rw [hx, hw]

/-- An index of the result array is in point `t`'s block iff each coordinate is in the block's range. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v4).slice (win0_2.rect t)).set ↔ _
  rw [View.set_slice_whole, Rect.mem_set_unit]
  exact Iff.rfl

/-- The row blocks cover the result array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The result array after the run is the whole product of the arrays as the region finds them. -/
theorem final (c : Dev nD) :
    (dat0 V c).arrAt 2 cfg0.N = Cert.GcnSpec.dense1 (F := Ideal) (V c main_arg0) (V c main_arg2) :=
  (dat0 V c).arrAt_eq_of_cover 2 _ (fun t _ => flushed_eq V c t) covered

end Cert.KernelIdeal.Layer1

end
-- ==== Proof.Layer2.lean ====
/-
  What the second pallas_call leaves in its result array: `relu (a + b1) · W2` of the whole aggregated matrix `a`.

  Point `t` reads rows 4000·t … 4000·t + 3999 of `a`, the stored one-row bias and the whole of `W2`, and writes the
  same rows of the result. Row p of a tile's result is row 4000·t + p of the whole second layer (Dense.lean), the 25
  row blocks cover the array. The stored bias row is known only through what it holds: entry (0, k) is `b1[k]`.
-/
import proofs.«114629_j13048110645409_1_alg».proof.Proof.Gen.KernelIdeal.Frame
import proofs.«114629_j13048110645409_1_alg».proof.Proof.Dense
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the `a` window moves with the result window down the rows; the bias row's and
    `W2`'s stay. -/
theorem blockIndices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 24
    ∧ win1_3.index t (1 : Fin 2) = 0 :=
  (by decide +kernel : ∀ t : Fin grid1.N, _)

/-- Every row block is some point's. -/
theorem blockOnto : ∀ q0 : Fin 25, ∃ t : Fin cfg1.N, win1_3.index t = ![q0.val, 0] :=
  (by decide +kernel : ∀ q0 : Fin 25, ∃ t : Fin grid1.N, win1_3.index t = ![q0.val, 0])

/-- What point `t` writes back is block `t` of the whole second layer. -/
theorem flushed_eq (c : Dev nD) (bvec : FVec Ideal ⟨1, ![128]⟩ .f32)
    (hb : ∀ k : Fin 128, V c main_v44 (ix2 (0 : Fin 1) k) = bvec (ix1 k)) (t : Fin cfg1.N) :
    (dat1 V c).flushed 3 t
      = ((cfg1.win 3).blk t).view.read (Elt Ideal) (Cert.GcnSpec.dense2 (F := Ideal) (V c main_v43) bvec (V c main_arg4)) := by
  show (cfg1.win 3).cut (grid1.coords t) ((dat1 V c).after 3 t) = _
  rw [after1_3]
  unfold out1_3
  rw [View.canon_unit_zero zeroOffsets]
  simp only [View.ld_unit_zero (S := S1x128) zeroOffsets, View.ld_unit_zero (S := S4000x128) zeroOffsets,
    View.ld_unit_zero (S := S128x40) zeroOffsets]
  obtain ⟨e00, e01, e10, e11, e20, e21, e30, e31⟩ := blockIndices t
  funext j
  obtain ⟨p, q, rfl⟩ : ∃ (p : Fin 4000) (q : Fin 40), j = ix2 p q := ⟨j 0, j 1, eq_ix2 j⟩
  have hP : win1_3.index t (0 : Fin 2) * 4000 + p.val < 100000 := by have := p.isLt; omega
  show k1_pay1 (F := Ideal) (iblk1 V c 1 t) (iblk1 V c 0 t) (iblk1 V c 2 t) (ix2 p q)
      = Cert.GcnSpec.dense2 (F := Ideal) (V c main_v43) bvec (V c main_arg4) (((cfg1.win 3).blk t).view.emb (ix2 p q))
  have hemb : ((cfg1.win 3).blk t).view.emb (ix2 p q)
      = ix2 (⟨win1_3.index t (0 : Fin 2) * 4000 + p.val, hP⟩ : Fin 100000) q := by
    funext a; apply Fin.ext
    match a with
    | ⟨0, _⟩ => show win1_3.index t (0 : Fin 2) * 4000 + 1 * p.val = win1_3.index t (0 : Fin 2) * 4000 + p.val; omega
    | ⟨1, _⟩ => show win1_3.index t (1 : Fin 2) * 40 + 1 * q.val = q.val; omega
  rw [hemb]
  refine (Cert.GcnDense.tile2_apply (iblk1 V c 1 t) (iblk1 V c 0 t) (iblk1 V c 2 t) p q).trans ?_
  refine Eq.trans ?_ (Cert.GcnDense.dense2_apply (V c main_v43) bvec (V c main_arg4) ⟨win1_3.index t (0 : Fin 2) * 4000 + p.val, hP⟩ q).symm
  refine Finset.sum_congr rfl fun k _ => ?_
  have ha : iblk1 V c 0 t (ix2 p k)
      = V c main_v43 (ix2 (⟨win1_3.index t (0 : Fin 2) * 4000 + p.val, hP⟩ : Fin 100000) k) := by
    show V c main_v43 (((cfg1.win 0).blk t).view.emb (ix2 p k)) = _
    refine congrArg (V c main_v43) ?_
    funext a; apply Fin.ext
    match a with
    | ⟨0, _⟩ => show win1_0.index t (0 : Fin 2) * 4000 + 1 * p.val = win1_3.index t (0 : Fin 2) * 4000 + p.val; omega
    | ⟨1, _⟩ => show win1_0.index t (1 : Fin 2) * 128 + 1 * k.val = k.val; omega
  have hbias : iblk1 V c 1 t (ix2 (0 : Fin 1) k) = bvec (ix1 k) := by
    refine Eq.trans ?_ (hb k)
    show V c main_v44 (((cfg1.win 1).blk t).view.emb (ix2 (0 : Fin 1) k)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : iblk1 V c 2 t (ix2 k q) = V c main_arg4 (ix2 k q) := by
    show V c main_arg4 (((cfg1.win 2).blk t).view.emb (ix2 k q)) = _
    refine congrArg (V c main_arg4) ?_
    funext a; apply Fin.ext
    match a with
    | ⟨0, _⟩ => show win1_2.index t (0 : Fin 2) * 128 + 1 * k.val = k.val; omega
    | ⟨1, _⟩ => show win1_2.index t (1 : Fin 2) * 40 + 1 * q.val = q.val; omega
  rw [ha, hbias, hw]

/-- An index of the result array is in point `t`'s block iff each coordinate is in the block's range. -/
theorem mem_blk (t : Fin cfg1.N) (i : S100000x40.Idx) :
    i ∈ ((cfg1.win 3).blk t).view.set ↔ ∀ a : Fin 2, win1_3.index t a * S4000x40.size a ≤ (i a).val
      ∧ (i a).val < win1_3.index t a * S4000x40.size a + S4000x40.size a := by
  show i ∈ ((View.whole main_v45).slice (win1_3.rect t)).set ↔ _
  rw [View.set_slice_whole, Rect.mem_set_unit]
  exact Iff.rfl

/-- The row blocks cover the result array. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := blockOnto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 40 ≤ (i 1).val ∧ (i 1).val < win1_3.index t (1 : Fin 2) * 40 + 40; omega

/-- The result array after the run is the whole second layer of the arrays as the region finds them. -/
theorem final (c : Dev nD) (bvec : FVec Ideal ⟨1, ![128]⟩ .f32)
    (hb : ∀ k : Fin 128, V c main_v44 (ix2 (0 : Fin 1) k) = bvec (ix1 k)) :
    (dat1 V c).arrAt 3 cfg1.N = Cert.GcnSpec.dense2 (F := Ideal) (V c main_v43) bvec (V c main_arg4) :=
  (dat1 V c).arrAt_eq_of_cover 3 _ (fun t _ => flushed_eq V c bvec hb t) covered

end Cert.KernelIdeal.Layer2

end
-- ==== Proof.KernelValue.lean ====
/-
  The idealized kernel's result buffer as the network of Spec.lean.

  The generated frame names the TensorCore's buffer contents at every boundary of @main as a fold: the launch
  contents, a host stretch applied, a region's arrays replaced by what its write-backs leave, and so on to the last
  boundary. This module reads that fold at the result buffer, one stretch at a time:
    the first stretch cuts the edge list into its two rows;
    the first region leaves `x · W1` (Layer1.lean);
    the middle stretch aggregates it over the edges and lays the bias vector out as a row;
    the second region leaves `relu (· + b1) · W2` of that (Layer2.lean);
    the last stretch aggregates again and adds `b2`.
  Each host stretch is read with the earlier boundary's contents kept as an opaque valuation (and at an arbitrary
  float family: nothing in a stretch depends on what a float is), and is then the piece of Spec.lean of the same
  name, operation for operation.
-/
import proofs.«114629_j13048110645409_1_alg».proof.Proof.Gen.KernelIdeal.Frame
import proofs.«114629_j13048110645409_1_alg».proof.Proof.Layer1
import proofs.«114629_j13048110645409_1_alg».proof.Proof.Layer2
import proofs.«114629_j13048110645409_1_alg».proof.Proof.LibRowBias
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first stretch: the edge list's rows; the arguments untouched -/

theorem W1_src (c : Dev nD) :
    W1 m ρ c (Proc.devRef .tc main_v1) = Cert.GcnSpec.srcRow (m ((c : Thread nD τ).loc main_arg1)) := by
  show StableHlo.after hostOps0 (W0 m ρ c) (Proc.devRef .tc main_v1) = _
  after_results_simp <;> rfl

theorem W1_dst (c : Dev nD) :
    W1 m ρ c (Proc.devRef .tc main_v3) = Cert.GcnSpec.dstRow (m ((c : Thread nD τ).loc main_arg1)) := by
  show StableHlo.after hostOps0 (W0 m ρ c) (Proc.devRef .tc main_v3) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## The first region: its result array is the whole first layer; nothing else moves -/

theorem W2_dense1 (c : Dev nD) :
    W2 m ρ c (Proc.devRef .tc main_v4)
      = Cert.GcnSpec.dense1 (F := Ideal) (m ((c : Thread nD τ).loc main_arg0)) (m ((c : Thread nD τ).loc main_arg2)) :=
  ((W2_arr m ρ c 2).trans (Cert.KernelIdeal.Layer1.final (V1 m ρ) c)).trans
    (congrArg₂ (Cert.GcnSpec.dense1 (F := Ideal)) (W1_arg0 m ρ c) (W1_arg2 m ρ c))

theorem W2_src (c : Dev nD) :
    W2 m ρ c (Proc.devRef .tc main_v1) = Cert.GcnSpec.srcRow (m ((c : Thread nD τ).loc main_arg1)) :=
  (W2_of_ne m ρ c main_v1 (by decide)).trans (W1_src m ρ c)
theorem W2_dst (c : Dev nD) :
    W2 m ρ c (Proc.devRef .tc main_v3) = Cert.GcnSpec.dstRow (m ((c : Thread nD τ).loc main_arg1)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## The middle stretch -/

/-- The aggregation of the first layer's result, over whatever the stretch is entered from. -/
theorem mid_aggregate {F : FTy → Type} [FloatOps F] (U : Valuation τ sig (Elt F)) :
    StableHlo.after hostOps1_2 (StableHlo.after hostOps1_1 (StableHlo.after hostOps1 U)) (Proc.devRef .tc main_v43)
      = Cert.GcnSpec.aggregate128 (F := F) (Cert.GcnSpec.withLoops (U (Proc.devRef .tc main_v1)))
          (Cert.GcnSpec.withLoops (U (Proc.devRef .tc main_v3))) (U (Proc.devRef .tc main_v4)) := by
  after_results_simp
  unfold Cert.GcnSpec.aggregate128 Cert.GcnSpec.edgeWeight Cert.GcnSpec.dinv Cert.GcnSpec.degree Cert.GcnSpec.idxCol
    Cert.GcnSpec.wrapIdx Cert.GcnSpec.withLoops
  rfl

/-- The bias vector laid out as a row. -/
theorem mid_bias (U : Valuation τ sig (Elt Ideal)) (k : Fin 128) :
    StableHlo.after hostOps1_2 (StableHlo.after hostOps1_1 (StableHlo.after hostOps1 U)) (Proc.devRef .tc main_v44) (ix2 (0 : Fin 1) k)
      = U (Proc.devRef .tc main_arg3) (ix1 k) := by
  after_results_simp
  exact Cert.RowBias.ofVec_apply (U (Proc.devRef .tc main_arg3)) _ k

theorem mid_keeps (U : Valuation τ sig (Elt Ideal)) :
    StableHlo.after hostOps1_2 (StableHlo.after hostOps1_1 (StableHlo.after hostOps1 U)) (Proc.devRef .tc main_arg4) = U (Proc.devRef .tc main_arg4)
    ∧ StableHlo.after hostOps1_2 (StableHlo.after hostOps1_1 (StableHlo.after hostOps1 U)) (Proc.devRef .tc main_v1) = U (Proc.devRef .tc main_v1)
    ∧ StableHlo.after hostOps1_2 (StableHlo.after hostOps1_1 (StableHlo.after hostOps1 U)) (Proc.devRef .tc main_v3) = U (Proc.devRef .tc main_v3)
    ∧ StableHlo.after hostOps1_2 (StableHlo.after hostOps1_1 (StableHlo.after hostOps1 U)) (Proc.devRef .tc main_arg5) = U (Proc.devRef .tc main_arg5) := by
  refine ⟨?_, ?_, ?_, ?_⟩ <;> after_results_simp <;> rfl

/-! ## The second region -/

theorem W6_dense2 (c : Dev nD) :
    W6 m ρ c (Proc.devRef .tc main_v45)
      = Cert.GcnSpec.dense2 (F := Ideal)
          (Cert.GcnSpec.aggregate128 (F := Ideal) (Cert.GcnSpec.withLoops (Cert.GcnSpec.srcRow (m ((c : Thread nD τ).loc main_arg1))))
            (Cert.GcnSpec.withLoops (Cert.GcnSpec.dstRow (m ((c : Thread nD τ).loc main_arg1))))
            (Cert.GcnSpec.dense1 (F := Ideal) (m ((c : Thread nD τ).loc main_arg0)) (m ((c : Thread nD τ).loc main_arg2))))
          (m ((c : Thread nD τ).loc main_arg3)) (m ((c : Thread nD τ).loc main_arg4)) := by
  have hb : ∀ k : Fin 128, V5 m ρ c main_v44 (ix2 (0 : Fin 1) k) = m ((c : Thread nD τ).loc main_arg3) (ix1 k) := fun k =>
    (mid_bias (W2 m ρ c) k).trans (congrFun (W2_arg3 m ρ c) (ix1 k))
  refine ((W6_arr m ρ c 3).trans (Cert.KernelIdeal.Layer2.final (V5 m ρ) c (m ((c : Thread nD τ).loc main_arg3)) hb)).trans ?_
  have ha : V5 m ρ c main_v43 = _ := (mid_aggregate (W2 m ρ c)).trans
    (by rw [W2_src m ρ c, W2_dst m ρ c, W2_dense1 m ρ c])
  have hw : V5 m ρ c main_arg4 = m ((c : Thread nD τ).loc main_arg4) := ((mid_keeps (W2 m ρ c)).1).trans (W2_arg4 m ρ c)
  rw [ha, hw]

theorem W6_src (c : Dev nD) :
    W6 m ρ c (Proc.devRef .tc main_v1) = Cert.GcnSpec.srcRow (m ((c : Thread nD τ).loc main_arg1)) :=
  ((W6_of_ne m ρ c main_v1 (by decide)).trans (mid_keeps (W2 m ρ c)).2.1).trans (W2_src m ρ c)
theorem W6_dst (c : Dev nD) :
    W6 m ρ c (Proc.devRef .tc main_v3) = Cert.GcnSpec.dstRow (m ((c : Thread nD τ).loc main_arg1)) :=
  ((W6_of_ne m ρ c main_v3 (by decide)).trans (mid_keeps (W2 m ρ c)).2.2.1).trans (W2_dst m ρ c)
theorem W6_arg5 (c : Dev nD) : W6 m ρ c (Proc.devRef .tc main_arg5) = m ((c : Thread nD τ).loc main_arg5) :=
  ((W6_of_ne m ρ c main_arg5 (by decide)).trans (mid_keeps (W2 m ρ c)).2.2.2).trans (W2_arg5 m ρ c)

/-! ## The last stretch -/

theorem last_aggregate {F : FTy → Type} [FloatOps F] (U : Valuation τ sig (Elt F)) :
    StableHlo.after hostOps2_2 (StableHlo.after hostOps2_1 (StableHlo.after hostOps2 U)) (Proc.devRef .tc main_v87)
      = Cert.GcnSpec.addBias40 (F := F)
          (Cert.GcnSpec.aggregate40 (F := F) (Cert.GcnSpec.withLoops (U (Proc.devRef .tc main_v1)))
            (Cert.GcnSpec.withLoops (U (Proc.devRef .tc main_v3))) (U (Proc.devRef .tc main_v45)))
          (U (Proc.devRef .tc main_arg5)) := by
  after_results_simp
  unfold Cert.GcnSpec.addBias40 Cert.GcnSpec.aggregate40 Cert.GcnSpec.edgeWeight Cert.GcnSpec.dinv Cert.GcnSpec.degree Cert.GcnSpec.idxCol
    Cert.GcnSpec.wrapIdx Cert.GcnSpec.withLoops
  rfl

/-! ## The result -/

/-- The result buffer at the last boundary is the network of the argument arrays. -/
theorem result_eq_network (c : Dev nD) :
    W9 m ρ c (Proc.devRef .tc main_v87)
      = Cert.GcnSpec.network (F := Ideal) (m ((c : Thread nD τ).loc main_arg1)) (m ((c : Thread nD τ).loc main_arg0))
          (m ((c : Thread nD τ).loc main_arg2)) (m ((c : Thread nD τ).loc main_arg3))
          (m ((c : Thread nD τ).loc main_arg4)) (m ((c : Thread nD τ).loc main_arg5)) := by
  refine (last_aggregate (W6 m ρ c)).trans ?_
  rw [W6_src m ρ c, W6_dst m ρ c, W6_dense2 m ρ c, W6_arg5 m ρ c]
  rfl

end Cert.KernelIdeal.Chain

end
-- ==== Proof.RefValue.lean ====
/-
  The reference's run computes the network of Spec.lean: its result buffer's composed term, unfolded, is
  `GcnSpec.network` of the argument arrays — the two programs' host pieces were spelt from this one.
-/
import proofs.«114629_j13048110645409_1_alg».proof.Defs
import proofs.«114629_j13048110645409_1_alg».proof.Proof.RefRun
import proofs.«114629_j13048110645409_1_alg».proof.Proof.Spec

noncomputable section

namespace Cert.GcnRef

open Cert.ReferenceIdeal Cert.ReferenceIdeal.Gen Idealize.ShloMosaic Idealize.ShloMosaic.TcCoe Idealize.SL.Sem

variable {F : FTy → Type} [FloatOps F]

set_option maxRecDepth 8192 in
/-- The reference's result is the network of its argument arrays. -/
theorem res_eq_network (m : (ℓ : Loc nD τ sig) → Buf (Elt F) ℓ) (c : Dev nD) :
    Cert.ReferenceIdeal.RunPatched.res_main_v90 m c
      = Cert.GcnSpec.network (F := F) (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunPatched.res_main_v90 Cert.GcnSpec.network Cert.GcnSpec.addBias40 Cert.GcnSpec.aggregate40
    Cert.GcnSpec.dense2 Cert.GcnSpec.aggregate128 Cert.GcnSpec.dense1 Cert.GcnSpec.edgeWeight Cert.GcnSpec.dinv
    Cert.GcnSpec.degree Cert.GcnSpec.idxCol Cert.GcnSpec.wrapIdx Cert.GcnSpec.withLoops Cert.GcnSpec.srcRow Cert.GcnSpec.dstRow
  rfl

end Cert.GcnRef

end
-- ==== Proof.lean ====
/-
  A two-layer graph convolution: two dense layers run as pallas_calls (row tiles of 4000, each tile's product taken on
  the vector unit from operands passed through a narrower float format) with the edge aggregation between and after them
  on the host, against the same network written with the host's matrix products.

  On the extended reals both programs compute `GcnSpec.network` of the argument arrays (Proof/Spec.lean):
    the kernel's run ends with its result buffer at the last fold of its host stretches and regions
    (Proof/KernelRun.lean), and that fold is the network (Proof/KernelValue.lean over Proof/Layer1.lean,
    Proof/Layer2.lean and Proof/Dense.lean: a tile's product is the same rows of the whole product; a change of float
    format is the identity; the product into a zero accumulator and the host's product are the same sum);
    the reference's run ends with its result at its operations' composed term (Proof/RefRun.lean), which is the network
    by unfolding (Proof/RefValue.lean).
  The law that joins the two sides is only that a sum over the contraction index does not depend on how the rows are
  tiled, so the precondition is never opened. The idealization rewrote nothing, so `preserves` is trivial.
-/
import proofs.«114629_j13048110645409_1_alg».proof.Defs
import proofs.«114629_j13048110645409_1_alg».proof.Proof.Gen.Kernel
import proofs.«114629_j13048110645409_1_alg».proof.Proof.Gen.Kernel.Frame
import proofs.«114629_j13048110645409_1_alg».proof.Proof.Gen.KernelIdeal
import proofs.«114629_j13048110645409_1_alg».proof.Proof.Gen.KernelIdeal.Frame
import proofs.«114629_j13048110645409_1_alg».proof.Proof.Gen.ReferenceIdeal
import proofs.«114629_j13048110645409_1_alg».proof.Proof.Gen.Pre_finite_inputs
import proofs.«114629_j13048110645409_1_alg».proof.Proof.KernelRun
import proofs.«114629_j13048110645409_1_alg».proof.Proof.KernelValue
import proofs.«114629_j13048110645409_1_alg».proof.Proof.RefRun
import proofs.«114629_j13048110645409_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunPatched.run (F := Ideal) m ρ)

/-- Both runs end with their result at the network of the (agreeing) argument arrays. -/
theorem algebraic : Cert.algebraic_KernelIdeal_ReferenceIdeal := by
  intro m ρ m' ρ' _ hagree
  refine ⟨fun c => Cert.GcnSpec.network (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq_network m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.RunPatched.run (F := Ideal) m' ρ')
    rw [Cert.GcnRef.res_eq_network, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
